-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x3x384x384 : Shape := ⟨4, ![64, 3, 384, 384]⟩
abbrev S21x21 : Shape := ⟨2, ![21, 21]⟩
abbrev S_ : Shape := ⟨0, ![]⟩

class Facts : Prop where
  bcast_S_S64x3x384x384 : S_.BroadcastsInDim S64x3x384x384 (![] : Fin 0 → Fin S64x3x384x384.rank)
  reducesTo_S64x3x384x384_S_d0_1_2_3 : S64x3x384x384.ReducesTo [0, 1, 2, 3] S_
  h_S_ : 0 < S_.numel

variable [Facts]

def fn {F : FTy → Type} [FloatOps F] (main_arg0 : FVec F S64x3x384x384 .f32) (main_arg1 : IVec S21x21 32) : IVec S_ 1 :=
  let main_v0 : FVec F S64x3x384x384 .f32 := Host.absf main_arg0
  let main_cst : FVec F S_ .f32 := constant S_ .f32 0x7F800000#32
  let main_v1 : FVec F S64x3x384x384 .f32 := broadcastInDim S64x3x384x384 ![] bcast_S_S64x3x384x384 main_cst
  let main_v2 : IVec S64x3x384x384 1 := cmpf .olt main_v0 main_v1
  let main_c : IVec S_ 1 := constantI S_ 1 1#1
  let main_v3 : IVec S_ 1 := (fun x v => Host.reduce IntOp.andi x v reducesTo_S64x3x384x384_S_d0_1_2_3 h_S_) main_v2 main_c
  main_v3
-- ==== Kernel.lean ====
abbrev S64x3x384x384 : Shape := ⟨4, ![64, 3, 384, 384]⟩
abbrev S21x21 : Shape := ⟨2, ![21, 21]⟩
abbrev S21 : Shape := ⟨1, ![21]⟩
abbrev S21x1 : Shape := ⟨2, ![21, 1]⟩
abbrev S_ : Shape := ⟨0, ![]⟩
abbrev S12 : Shape := ⟨1, ![12]⟩
abbrev S1x12 : Shape := ⟨2, ![1, 12]⟩
abbrev S21x12 : Shape := ⟨2, ![21, 12]⟩
abbrev S252 : Shape := ⟨1, ![252]⟩
abbrev S21x12x21 : Shape := ⟨3, ![21, 12, 21]⟩
abbrev S252x21 : Shape := ⟨2, ![252, 21]⟩
abbrev S252x21x12 : Shape := ⟨3, ![252, 21, 12]⟩
abbrev S252x252 : Shape := ⟨2, ![252, 252]⟩
abbrev S384x384 : Shape := ⟨2, ![384, 384]⟩
abbrev S252x1 : Shape := ⟨2, ![252, 1]⟩
abbrev S1x252 : Shape := ⟨2, ![1, 252]⟩
abbrev S252x252x1 : Shape := ⟨3, ![252, 252, 1]⟩
abbrev S252x252x2 : Shape := ⟨3, ![252, 252, 2]⟩
abbrev S192x384x384 : Shape := ⟨3, ![192, 384, 384]⟩
abbrev S8x384x384 : Shape := ⟨3, ![8, 384, 384]⟩
abbrev S1x384x384 : Shape := ⟨3, ![1, 384, 384]⟩

abbrev nBuf : Space → Nat
  | .hbm => 62
  | .vmem => 5
  | .smem => 0
  | _ => 0

abbrev bufTy : (tb : Table) → Fin (tcTables nBuf tb) → BufTy
  | .hbm, ⟨0, _⟩ => ⟨S64x3x384x384, .f32⟩
  | .hbm, ⟨1, _⟩ => ⟨S21x21, .i32⟩
  | .hbm, ⟨2, _⟩ => ⟨S21, .i32⟩
  | .hbm, ⟨3, _⟩ => ⟨S21x1, .i32⟩
  | .hbm, ⟨4, _⟩ => ⟨S_, .i32⟩
  | .hbm, ⟨5, _⟩ => ⟨S21x1, .i32⟩
  | .hbm, ⟨6, _⟩ => ⟨S21x1, .i32⟩
  | .hbm, ⟨7, _⟩ => ⟨S_, .i32⟩
  | .hbm, ⟨8, _⟩ => ⟨S21x1, .i32⟩
  | .hbm, ⟨9, _⟩ => ⟨S21x1, .i32⟩
  | .hbm, ⟨10, _⟩ => ⟨S12, .i32⟩
  | .hbm, ⟨11, _⟩ => ⟨S1x12, .i32⟩
  | .hbm, ⟨12, _⟩ => ⟨S21x12, .i32⟩
  | .hbm, ⟨13, _⟩ => ⟨S21x12, .i32⟩
  | .hbm, ⟨14, _⟩ => ⟨S21x12, .i32⟩
  | .hbm, ⟨15, _⟩ => ⟨S252, .i32⟩
  | .hbm, ⟨16, _⟩ => ⟨S21, .i32⟩
  | .hbm, ⟨17, _⟩ => ⟨S21x1, .i32⟩
  | .hbm, ⟨18, _⟩ => ⟨S_, .i32⟩
  | .hbm, ⟨19, _⟩ => ⟨S21x1, .i32⟩
  | .hbm, ⟨20, _⟩ => ⟨S21x1, .i32⟩
  | .hbm, ⟨21, _⟩ => ⟨S_, .i32⟩
  | .hbm, ⟨22, _⟩ => ⟨S21x1, .i32⟩
  | .hbm, ⟨23, _⟩ => ⟨S21x1, .i32⟩
  | .hbm, ⟨24, _⟩ => ⟨S12, .i32⟩
  | .hbm, ⟨25, _⟩ => ⟨S1x12, .i32⟩
  | .hbm, ⟨26, _⟩ => ⟨S21x12, .i32⟩
  | .hbm, ⟨27, _⟩ => ⟨S21x12, .i32⟩
  | .hbm, ⟨28, _⟩ => ⟨S21x12, .i32⟩
  | .hbm, ⟨29, _⟩ => ⟨S252, .i32⟩
  | .hbm, ⟨30, _⟩ => ⟨S21x21, .f32⟩
  | .hbm, ⟨31, _⟩ => ⟨S21x12x21, .f32⟩
  | .hbm, ⟨32, _⟩ => ⟨S252x21, .f32⟩
  | .hbm, ⟨33, _⟩ => ⟨S252x21x12, .f32⟩
  | .hbm, ⟨34, _⟩ => ⟨S252x252, .f32⟩
  | .hbm, ⟨35, _⟩ => ⟨S_, .f32⟩
  | .hbm, ⟨36, _⟩ => ⟨S384x384, .f32⟩
  | .hbm, ⟨37, _⟩ => ⟨S252x1, .i32⟩
  | .hbm, ⟨38, _⟩ => ⟨S1x252, .i32⟩
  | .hbm, ⟨39, _⟩ => ⟨S_, .i32⟩
  | .hbm, ⟨40, _⟩ => ⟨S252x1, .i32⟩
  | .hbm, ⟨41, _⟩ => ⟨S252x1, .i1⟩
  | .hbm, ⟨42, _⟩ => ⟨S_, .i32⟩
  | .hbm, ⟨43, _⟩ => ⟨S252x1, .i32⟩
  | .hbm, ⟨44, _⟩ => ⟨S252x1, .i32⟩
  | .hbm, ⟨45, _⟩ => ⟨S252x1, .i32⟩
  | .hbm, ⟨46, _⟩ => ⟨S_, .i32⟩
  | .hbm, ⟨47, _⟩ => ⟨S1x252, .i32⟩
  | .hbm, ⟨48, _⟩ => ⟨S1x252, .i1⟩
  | .hbm, ⟨49, _⟩ => ⟨S_, .i32⟩
  | .hbm, ⟨50, _⟩ => ⟨S1x252, .i32⟩
  | .hbm, ⟨51, _⟩ => ⟨S1x252, .i32⟩
  | .hbm, ⟨52, _⟩ => ⟨S1x252, .i32⟩
  | .hbm, ⟨53, _⟩ => ⟨S252x252, .i32⟩
  | .hbm, ⟨54, _⟩ => ⟨S252x252, .i32⟩
  | .hbm, ⟨55, _⟩ => ⟨S252x252x1, .i32⟩
  | .hbm, ⟨56, _⟩ => ⟨S252x252x1, .i32⟩
  | .hbm, ⟨57, _⟩ => ⟨S252x252x2, .i32⟩
  | .hbm, ⟨58, _⟩ => ⟨S384x384, .f32⟩
  | .hbm, ⟨59, _⟩ => ⟨S192x384x384, .f32⟩
  | .hbm, ⟨60, _⟩ => ⟨S192x384x384, .f32⟩
  | .hbm, ⟨61, _⟩ => ⟨S64x3x384x384, .f32⟩
  | .local _ .vmem, ⟨0, _⟩ => ⟨S8x384x384, .f32⟩
  | .local _ .vmem, ⟨1, _⟩ => ⟨S8x384x384, .f32⟩
  | .local _ .vmem, ⟨2, _⟩ => ⟨S384x384, .f32⟩
  | .local _ .vmem, ⟨3, _⟩ => ⟨S8x384x384, .f32⟩
  | .local _ .vmem, ⟨4, _⟩ => ⟨S8x384x384, .f32⟩
  | _, _ => ⟨S64x3x384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c_1 : Ref sig .tc := ⟨.hbm, 18, rfl⟩
abbrev main_v14 : Ref sig .tc := ⟨.hbm, 19, rfl⟩
abbrev main_v15 : Ref sig .tc := ⟨.hbm, 20, rfl⟩
abbrev main_c_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_c_3 : Ref sig .tc := ⟨.hbm, 39, rfl⟩
abbrev main_v32 : Ref sig .tc := ⟨.hbm, 40, rfl⟩
abbrev main_v33 : Ref sig .tc := ⟨.hbm, 41, rfl⟩
abbrev main_c_4 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_c_5 : Ref sig .tc := ⟨.hbm, 46, rfl⟩
abbrev main_v37 : Ref sig .tc := ⟨.hbm, 47, rfl⟩
abbrev main_v38 : Ref sig .tc := ⟨.hbm, 48, rfl⟩
abbrev main_c_6 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![24], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x384x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x384x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S21_S21x1_0 : S21.BroadcastsInDim S21x1 (![0] : Fin 1 → Fin S21x1.rank)
  bcast_S_S21x1 : S_.BroadcastsInDim S21x1 (![] : Fin 0 → Fin S21x1.rank)
  bcast_S12_S1x12_1 : S12.BroadcastsInDim S1x12 (![1] : Fin 1 → Fin S1x12.rank)
  bcast_S21x1_S21x12_0_1 : S21x1.BroadcastsInDim S21x12 (![0, 1] : Fin 2 → Fin S21x12.rank)
  bcast_S1x12_S21x12_0_1 : S1x12.BroadcastsInDim S21x12 (![0, 1] : Fin 2 → Fin S21x12.rank)
  shapeCasts_S21x12_S252 : S21x12.ShapeCasts S252
  bcast_S21x21_S21x12x21_0_2 : S21x21.BroadcastsInDim S21x12x21 (![0, 2] : Fin 2 → Fin S21x12x21.rank)
  shapeCasts_S21x12x21_S252x21 : S21x12x21.ShapeCasts S252x21
  bcast_S252x21_S252x21x12_0_1 : S252x21.BroadcastsInDim S252x21x12 (![0, 1] : Fin 2 → Fin S252x21x12.rank)
  shapeCasts_S252x21x12_S252x252 : S252x21x12.ShapeCasts S252x252
  bcast_S_S384x384 : S_.BroadcastsInDim S384x384 (![] : Fin 0 → Fin S384x384.rank)
  bcast_S252_S252x1_0 : S252.BroadcastsInDim S252x1 (![0] : Fin 1 → Fin S252x1.rank)
  bcast_S252_S1x252_1 : S252.BroadcastsInDim S1x252 (![1] : Fin 1 → Fin S1x252.rank)
  bcast_S_S252x1 : S_.BroadcastsInDim S252x1 (![] : Fin 0 → Fin S252x1.rank)
  bcast_S_S1x252 : S_.BroadcastsInDim S1x252 (![] : Fin 0 → Fin S1x252.rank)
  bcast_S252x1_S252x252_0_1 : S252x1.BroadcastsInDim S252x252 (![0, 1] : Fin 2 → Fin S252x252.rank)
  bcast_S1x252_S252x252_0_1 : S1x252.BroadcastsInDim S252x252 (![0, 1] : Fin 2 → Fin S252x252.rank)
  bcast_S252x252_S252x252x1_0_1 : S252x252.BroadcastsInDim S252x252x1 (![0, 1] : Fin 2 → Fin S252x252x1.rank)
  concatenates_S252x252x1_S252x252x1_S252x252x2_d2 : Shape.Concatenates [S252x252x1, S252x252x1] S252x252x2 2
  shapeCasts_S64x3x384x384_S192x384x384 : S64x3x384x384.ShapeCasts S192x384x384
  inb_S8x384x384_S8x384x384_0_0_0 : ∀ a, (![0, 0, 0] : Fin 3 → Nat) a + S8x384x384.size a ≤ S8x384x384.size a
  h_S8x384x384 : 0 < S8x384x384.numel
  shapeCasts_S8x384x384_S8x384x384 : S8x384x384.ShapeCasts S8x384x384
  inb_S384x384_S384x384_0_0 : ∀ a, (![0, 0] : Fin 2 → Nat) a + S384x384.size a ≤ S384x384.size a
  h_S384x384 : 0 < S384x384.numel
  shapeCasts_S384x384_S384x384 : S384x384.ShapeCasts S384x384
  shapeCasts_S384x384_S1x384x384 : S384x384.ShapeCasts S1x384x384
  broadcasts_S1x384x384_S8x384x384 : S1x384x384.Broadcasts S8x384x384
  shapeCasts_S192x384x384_S64x3x384x384 : S192x384x384.ShapeCasts S64x3x384x384
  scatter_S384x384_S252x252x2_S252x252_n_01_01_2_wf : ScatterDims.WF S384x384 S252x252x2 S252x252 [] [0, 1] [0, 1] 2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x384x384.size a ≤ S192x384x384.size a
  hwx0_0 : ∀ i : grid0.Coords, EltTy.bits .f32 = 32 ∨ (Rect.block (s := S192x384x384) S8x384x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x384.size a ≤ S384x384.size a
  hwx0_1 : ∀ i : grid0.Coords, EltTy.bits .f32 = 32 ∨ (Rect.block (s := S384x384) S384x384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x384x384.size a ≤ S192x384x384.size a
  hwx0_2 : ∀ i : grid0.Coords, EltTy.bits .f32 = 32 ∨ (Rect.block (s := S192x384x384) S8x384x384.size (cc0_transform_2 i) (hinb0_2 i)).WholeWords (EltTy.packing .f32)

variable [Facts₀]

def scatter_S384x384_S252x252x2_S252x252_n_01_01_2 : ScatterDims S384x384 S252x252x2 S252x252 where
  updateWindowDims := []
  insertedWindowDims := [0, 1]
  scatterDimsToOperandDims := [0, 1]
  indexVectorDim := 2
  wf := scatter_S384x384_S252x252x2_S252x252_n_01_01_2_wf

abbrev win0_0 : Pipeline.Window sig grid0 :=
  Pipeline.Window.ofSpec (Memref.whole main_v48) S8x384x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v47) S384x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v49) S8x384x384.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x3x384x384 : Shape := ⟨4, ![64, 3, 384, 384]⟩
abbrev S21x21 : Shape := ⟨2, ![21, 21]⟩
abbrev S21 : Shape := ⟨1, ![21]⟩
abbrev S21x1 : Shape := ⟨2, ![21, 1]⟩
abbrev S_ : Shape := ⟨0, ![]⟩
abbrev S12 : Shape := ⟨1, ![12]⟩
abbrev S1x12 : Shape := ⟨2, ![1, 12]⟩
abbrev S21x12 : Shape := ⟨2, ![21, 12]⟩
abbrev S252 : Shape := ⟨1, ![252]⟩
abbrev S21x12x21 : Shape := ⟨3, ![21, 12, 21]⟩
abbrev S252x21 : Shape := ⟨2, ![252, 21]⟩
abbrev S252x21x12 : Shape := ⟨3, ![252, 21, 12]⟩
abbrev S252x252 : Shape := ⟨2, ![252, 252]⟩
abbrev S384x384 : Shape := ⟨2, ![384, 384]⟩
abbrev S252x1 : Shape := ⟨2, ![252, 1]⟩
abbrev S1x252 : Shape := ⟨2, ![1, 252]⟩
abbrev S252x252x1 : Shape := ⟨3, ![252, 252, 1]⟩
abbrev S252x252x2 : Shape := ⟨3, ![252, 252, 2]⟩
abbrev S1x1x384x384 : Shape := ⟨4, ![1, 1, 384, 384]⟩

abbrev nBuf : Space → Nat
  | .hbm => 62
  | .vmem => 0
  | .smem => 0
  | _ => 0

abbrev bufTy : (tb : Table) → Fin (tcTables nBuf tb) → BufTy
  | .hbm, ⟨0, _⟩ => ⟨S64x3x384x384, .f32⟩
  | .hbm, ⟨1, _⟩ => ⟨S21x21, .i32⟩
  | .hbm, ⟨2, _⟩ => ⟨S21, .i32⟩
  | .hbm, ⟨3, _⟩ => ⟨S21x1, .i32⟩
  | .hbm, ⟨4, _⟩ => ⟨S_, .i32⟩
  | .hbm, ⟨5, _⟩ => ⟨S21x1, .i32⟩
  | .hbm, ⟨6, _⟩ => ⟨S21x1, .i32⟩
  | .hbm, ⟨7, _⟩ => ⟨S_, .i32⟩
  | .hbm, ⟨8, _⟩ => ⟨S21x1, .i32⟩
  | .hbm, ⟨9, _⟩ => ⟨S21x1, .i32⟩
  | .hbm, ⟨10, _⟩ => ⟨S12, .i32⟩
  | .hbm, ⟨11, _⟩ => ⟨S1x12, .i32⟩
  | .hbm, ⟨12, _⟩ => ⟨S21x12, .i32⟩
  | .hbm, ⟨13, _⟩ => ⟨S21x12, .i32⟩
  | .hbm, ⟨14, _⟩ => ⟨S21x12, .i32⟩
  | .hbm, ⟨15, _⟩ => ⟨S252, .i32⟩
  | .hbm, ⟨16, _⟩ => ⟨S21, .i32⟩
  | .hbm, ⟨17, _⟩ => ⟨S21x1, .i32⟩
  | .hbm, ⟨18, _⟩ => ⟨S_, .i32⟩
  | .hbm, ⟨19, _⟩ => ⟨S21x1, .i32⟩
  | .hbm, ⟨20, _⟩ => ⟨S21x1, .i32⟩
  | .hbm, ⟨21, _⟩ => ⟨S_, .i32⟩
  | .hbm, ⟨22, _⟩ => ⟨S21x1, .i32⟩
  | .hbm, ⟨23, _⟩ => ⟨S21x1, .i32⟩
  | .hbm, ⟨24, _⟩ => ⟨S12, .i32⟩
  | .hbm, ⟨25, _⟩ => ⟨S1x12, .i32⟩
  | .hbm, ⟨26, _⟩ => ⟨S21x12, .i32⟩
  | .hbm, ⟨27, _⟩ => ⟨S21x12, .i32⟩
  | .hbm, ⟨28, _⟩ => ⟨S21x12, .i32⟩
  | .hbm, ⟨29, _⟩ => ⟨S252, .i32⟩
  | .hbm, ⟨30, _⟩ => ⟨S21x21, .f32⟩
  | .hbm, ⟨31, _⟩ => ⟨S21x12x21, .f32⟩
  | .hbm, ⟨32, _⟩ => ⟨S252x21, .f32⟩
  | .hbm, ⟨33, _⟩ => ⟨S252x21x12, .f32⟩
  | .hbm, ⟨34, _⟩ => ⟨S252x252, .f32⟩
  | .hbm, ⟨35, _⟩ => ⟨S_, .f32⟩
  | .hbm, ⟨36, _⟩ => ⟨S384x384, .f32⟩
  | .hbm, ⟨37, _⟩ => ⟨S252x1, .i32⟩
  | .hbm, ⟨38, _⟩ => ⟨S1x252, .i32⟩
  | .hbm, ⟨39, _⟩ => ⟨S_, .i32⟩
  | .hbm, ⟨40, _⟩ => ⟨S252x1, .i32⟩
  | .hbm, ⟨41, _⟩ => ⟨S252x1, .i1⟩
  | .hbm, ⟨42, _⟩ => ⟨S_, .i32⟩
  | .hbm, ⟨43, _⟩ => ⟨S252x1, .i32⟩
  | .hbm, ⟨44, _⟩ => ⟨S252x1, .i32⟩
  | .hbm, ⟨45, _⟩ => ⟨S252x1, .i32⟩
  | .hbm, ⟨46, _⟩ => ⟨S_, .i32⟩
  | .hbm, ⟨47, _⟩ => ⟨S1x252, .i32⟩
  | .hbm, ⟨48, _⟩ => ⟨S1x252, .i1⟩
  | .hbm, ⟨49, _⟩ => ⟨S_, .i32⟩
  | .hbm, ⟨50, _⟩ => ⟨S1x252, .i32⟩
  | .hbm, ⟨51, _⟩ => ⟨S1x252, .i32⟩
  | .hbm, ⟨52, _⟩ => ⟨S1x252, .i32⟩
  | .hbm, ⟨53, _⟩ => ⟨S252x252, .i32⟩
  | .hbm, ⟨54, _⟩ => ⟨S252x252, .i32⟩
  | .hbm, ⟨55, _⟩ => ⟨S252x252x1, .i32⟩
  | .hbm, ⟨56, _⟩ => ⟨S252x252x1, .i32⟩
  | .hbm, ⟨57, _⟩ => ⟨S252x252x2, .i32⟩
  | .hbm, ⟨58, _⟩ => ⟨S384x384, .f32⟩
  | .hbm, ⟨59, _⟩ => ⟨S1x1x384x384, .f32⟩
  | .hbm, ⟨60, _⟩ => ⟨S64x3x384x384, .f32⟩
  | .hbm, ⟨61, _⟩ => ⟨S64x3x384x384, .f32⟩
  | _, _ => ⟨S64x3x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c_1 : Ref sig .tc := ⟨.hbm, 18, rfl⟩
abbrev main_v14 : Ref sig .tc := ⟨.hbm, 19, rfl⟩
abbrev main_v15 : Ref sig .tc := ⟨.hbm, 20, rfl⟩
abbrev main_c_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_c_3 : Ref sig .tc := ⟨.hbm, 39, rfl⟩
abbrev main_v32 : Ref sig .tc := ⟨.hbm, 40, rfl⟩
abbrev main_v33 : Ref sig .tc := ⟨.hbm, 41, rfl⟩
abbrev main_c_4 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_c_5 : Ref sig .tc := ⟨.hbm, 46, rfl⟩
abbrev main_v37 : Ref sig .tc := ⟨.hbm, 47, rfl⟩
abbrev main_v38 : Ref sig .tc := ⟨.hbm, 48, rfl⟩
abbrev main_c_6 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩

abbrev nD : Nat := 1
abbrev τ : Topo := Topo.v7x

variable {F : FTy → Type} [FloatOps F]

class Facts₀ : Prop where
  bcast_S21_S21x1_0 : S21.BroadcastsInDim S21x1 (![0] : Fin 1 → Fin S21x1.rank)
  bcast_S_S21x1 : S_.BroadcastsInDim S21x1 (![] : Fin 0 → Fin S21x1.rank)
  bcast_S12_S1x12_1 : S12.BroadcastsInDim S1x12 (![1] : Fin 1 → Fin S1x12.rank)
  bcast_S21x1_S21x12_0_1 : S21x1.BroadcastsInDim S21x12 (![0, 1] : Fin 2 → Fin S21x12.rank)
  bcast_S1x12_S21x12_0_1 : S1x12.BroadcastsInDim S21x12 (![0, 1] : Fin 2 → Fin S21x12.rank)
  shapeCasts_S21x12_S252 : S21x12.ShapeCasts S252
  bcast_S21x21_S21x12x21_0_2 : S21x21.BroadcastsInDim S21x12x21 (![0, 2] : Fin 2 → Fin S21x12x21.rank)
  shapeCasts_S21x12x21_S252x21 : S21x12x21.ShapeCasts S252x21
  bcast_S252x21_S252x21x12_0_1 : S252x21.BroadcastsInDim S252x21x12 (![0, 1] : Fin 2 → Fin S252x21x12.rank)
  shapeCasts_S252x21x12_S252x252 : S252x21x12.ShapeCasts S252x252
  bcast_S_S384x384 : S_.BroadcastsInDim S384x384 (![] : Fin 0 → Fin S384x384.rank)
  bcast_S252_S252x1_0 : S252.BroadcastsInDim S252x1 (![0] : Fin 1 → Fin S252x1.rank)
  bcast_S252_S1x252_1 : S252.BroadcastsInDim S1x252 (![1] : Fin 1 → Fin S1x252.rank)
  bcast_S_S252x1 : S_.BroadcastsInDim S252x1 (![] : Fin 0 → Fin S252x1.rank)
  bcast_S_S1x252 : S_.BroadcastsInDim S1x252 (![] : Fin 0 → Fin S1x252.rank)
  bcast_S252x1_S252x252_0_1 : S252x1.BroadcastsInDim S252x252 (![0, 1] : Fin 2 → Fin S252x252.rank)
  bcast_S1x252_S252x252_0_1 : S1x252.BroadcastsInDim S252x252 (![0, 1] : Fin 2 → Fin S252x252.rank)
  bcast_S252x252_S252x252x1_0_1 : S252x252.BroadcastsInDim S252x252x1 (![0, 1] : Fin 2 → Fin S252x252x1.rank)
  concatenates_S252x252x1_S252x252x1_S252x252x2_d2 : Shape.Concatenates [S252x252x1, S252x252x1] S252x252x2 2
  bcast_S384x384_S1x1x384x384_2_3 : S384x384.BroadcastsInDim S1x1x384x384 (![2, 3] : Fin 2 → Fin S1x1x384x384.rank)
  bcast_S1x1x384x384_S64x3x384x384_0_1_2_3 : S1x1x384x384.BroadcastsInDim S64x3x384x384 (![0, 1, 2, 3] : Fin 4 → Fin S64x3x384x384.rank)
  scatter_S384x384_S252x252x2_S252x252_n_01_01_2_wf : ScatterDims.WF S384x384 S252x252x2 S252x252 [] [0, 1] [0, 1] 2

variable [Facts₀]

def scatter_S384x384_S252x252x2_S252x252_n_01_01_2 : ScatterDims S384x384 S252x252x2 S252x252 where
  updateWindowDims := []
  insertedWindowDims := [0, 1]
  scatterDimsToOperandDims := [0, 1]
  indexVectorDim := 2
  wf := scatter_S384x384_S252x252x2_S252x252_n_01_01_2_wf

class Facts : Prop extends Facts₀ where

variable [Facts]
-- ==== Proof.MaskedProduct.lean ====
/-
  An image batch x : [64, 3, 384, 384] multiplied, pixel by pixel, by one mask M : [384, 384] that every image and
  every channel shares:  (x ⊙ M) (b, ch, h, w) = x (b, ch, h, w) · M (h, w).

  The same product can be formed on the batch with its two leading axes merged into 192 planes,
  (X ⊙ M) (p, h, w) = X (p, h, w) · M (h, w), and the planes split back into (b, ch): merging and splitting keep
  the row-major position, p = 3 b + ch, and leave the pixel (h, w) alone, so the two products are the same array.
  Nothing here uses a law of arithmetic: each entry is ONE product of the same two factors on both sides.
-/
import Idealize.ShloMosaic.Lib.Pipeline.Value
import Idealize.ShloMosaic.Lib.ValueIdx

noncomputable section

namespace Cert.MaskedProduct

open Idealize.ShloMosaic Idealize.ShloMosaic.ValueIdx

/-- The image batch. -/
abbrev Img : Shape := ⟨4, ![64, 3, 384, 384]⟩
/-- The batch as 192 = 64 · 3 planes. -/
abbrev Planes : Shape := ⟨3, ![192, 384, 384]⟩
/-- Eight consecutive planes. -/
abbrev Tile : Shape := ⟨3, ![8, 384, 384]⟩
/-- The mask as a single plane. -/
abbrev Plane : Shape := ⟨3, ![1, 384, 384]⟩
/-- The mask. -/
abbrev Msk : Shape := ⟨2, ![384, 384]⟩

variable {F : FTy → Type} [FloatOps F]

/-- The pixel (h, w) of an entry (b, ch, h, w) of the batch. -/
abbrev pixel (i : Img.Idx) : Msk.Idx := ix2 (i 2) (i 3)
/-- The pixel (h, w) of an entry (p, h, w) of the planes. -/
abbrev planePixel (j : Planes.Idx) : Msk.Idx := ix2 (j 1) (j 2)
/-- The pixel (h, w) of an entry (q, h, w) of a tile of eight planes. -/
abbrev tilePixel (j : Tile.Idx) : Msk.Idx := ix2 (j 1) (j 2)

/-- The plane p = 3 b + ch that holds entry (b, ch, h, w), and the entry's place (p, h, w) in it. -/
def planeOf (i : Img.Idx) : Planes.Idx :=
  ix3 ⟨(i 0).val * 3 + (i 1).val, by
    have h0 : (i 0).val < 64 := (i 0).isLt
    have h1 : (i 1).val < 3 := (i 1).isLt
    omega⟩ (i 2) (i 3)

/-- x ⊙ M on the batch: every entry times the mask at the entry's pixel. -/
def imageTimesMask (x : Img.Idx → Elt F .f32) (M : Msk.Idx → Elt F .f32) : Img.Idx → Elt F .f32 :=
  fun i => FloatOps.mulf (x i) (M (pixel i))

/-- X ⊙ M on the planes. -/
def planesTimesMask (X : Planes.Idx → Elt F .f32) (M : Msk.Idx → Elt F .f32) : Planes.Idx → Elt F .f32 :=
  fun j => FloatOps.mulf (X j) (M (planePixel j))

/-- Entry (b, ch, h, w) of the batch and entry (3 b + ch, h, w) of the planes sit at the same row-major position,
    ((3 b + ch) · 384 + h) · 384 + w. -/
theorem rowMajor_planeOf (i : Img.Idx) : (Planes.rowMajor (planeOf i)).val = (Img.rowMajor i).val := by
  rw [Shape.rowMajor_val_three, Shape.rowMajor_val_four]
  rfl

/-- Merge the leading axes, multiply the planes by the mask, split the leading axes again: that is x ⊙ M. -/
theorem split_planesTimesMask_merge (x : Img.Idx → Elt F .f32) (M : Msk.Idx → Elt F .f32)
    (hmerge : Img.ShapeCasts Planes) (hsplit : Planes.ShapeCasts Img) :
    shapeCast Img (planesTimesMask (shapeCast Planes x hmerge) M) hsplit = imageTimesMask x M := by
  funext i
  rw [shapeCast_apply _ hsplit i (planeOf i) (rowMajor_planeOf i)]
  unfold planesTimesMask imageTimesMask
  rw [shapeCast_apply x hmerge (planeOf i) i (rowMajor_planeOf i).symm]
  rfl

/-- The mask, viewed as one plane and repeated over the eight planes of a tile, read at (q, h, w): the mask at (h, w). -/
theorem maskOverTile_apply {α : Type} (M : Msk.Idx → α) (hplane : Msk.ShapeCasts Plane) (hrep : Plane.Broadcasts Tile)
    (j : Tile.Idx) : broadcastTo Tile (shapeCast Plane M hplane) hrep j = M (tilePixel j) := by
  rw [broadcastTo_apply _ hrep j (ix3 ⟨0, Nat.one_pos⟩ (j 1) (j 2)) (fun a => match a with
    | ⟨0, _⟩ => by show 0 = if (1 : Nat) = 1 then 0 else _; rw [if_pos rfl]
    | ⟨1, _⟩ => by show (j 1).val = if (384 : Nat) = 1 then 0 else _; rw [if_neg (by decide)]; rfl
    | ⟨2, _⟩ => by show (j 2).val = if (384 : Nat) = 1 then 0 else _; rw [if_neg (by decide)]; rfl)]
  refine shapeCast_apply M hplane _ (tilePixel j) ?_
  rw [Shape.rowMajor_val_two, Shape.rowMajor_val_three]
  show (j 1).val * 384 + (j 2).val = (0 * 384 + (j 1).val) * 384 + (j 2).val
  omega

end Cert.MaskedProduct

end
-- ==== Proof.KernelPlanes.lean ====
/-
  The kernel walks the 192 planes eight at a time: grid point t holds planes 8 t … 8 t + 7 of X (its first window), the
  whole mask M (its second window, the same block at every point), and stores X ⊙ M on those eight planes back to planes
  8 t … 8 t + 7 of the result (its third window). The 24 points' tiles fill the 192 planes, plane p belonging to point
  p / 8, so after the run the result array is X ⊙ M on all the planes.
-/
import proofs.«115919_j9491877724175_1_alg».proof.Proof.Gen.KernelIdeal.Frame
import proofs.«115919_j9491877724175_1_alg».proof.Proof.MaskedProduct

noncomputable section

namespace Cert.KernelIdeal.PlanesValue

open Cert.KernelIdeal Cert.KernelIdeal.Gen Cert.MaskedProduct Idealize.ShloMosaic Idealize.ShloMosaic.TcCoe Idealize.SL.Sem
open Idealize.ShloMosaic.ValueIdx
open Idealize.ShloMosaic.Pipeline (Dat)

variable {F : FTy → Type} [FloatOps F]
variable (m : (ℓ : Loc nD τ sig) → Buf (Elt F) ℓ) (ρ : Dev nD → PrngReg)

theorem origin3 : (![0, 0, 0] : Fin 3 → Nat) = fun _ => 0 := funext fun a => by fin_cases a <;> rfl
theorem origin2 : (![0, 0] : Fin 2 → Nat) = fun _ => 0 := funext fun a => by fin_cases a <;> rfl

/-- What the body stores, at entry (q, h, w) of its tile: the loaded tile's entry times the loaded mask at (h, w)
    (the mask is viewed as one plane and repeated over the tile's eight). -/
theorem stored_apply (x0 : Vec F S8x384x384 .f32) (x1 : Vec F S384x384 .f32) (j : S8x384x384.Idx) :
    k0_pay1 x0 x1 j = FloatOps.mulf (x0 j) (x1 (tilePixel j)) := by
  unfold k0_pay1
  show FloatOps.mulf (shapeCast S8x384x384 x0 shapeCasts_S8x384x384_S8x384x384 j)
      (broadcastTo S8x384x384 (shapeCast S1x384x384 (shapeCast S384x384 x1 shapeCasts_S384x384_S384x384) shapeCasts_S384x384_S1x384x384)
        broadcasts_S1x384x384_S8x384x384 j) = _
  rw [shapeCast_self, shapeCast_self]
  exact congrArg (FloatOps.mulf (x0 j)) (maskOverTile_apply x1 shapeCasts_S384x384_S1x384x384 broadcasts_S1x384x384_S8x384x384 j)

/-- Where each window's block sits at point t: the two tiles at planes 8 t on, the mask whole. -/
theorem block_index : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- What point t writes back is its tile of X ⊙ M, X and M the two input arrays as the region finds them. -/
theorem flushed_eq (c : Dev nD) (t : Fin cfg0.N) :
    (dats m 0 c).flushed 2 t = ((cfg0.win 2).blk t).view.read (Elt F) (planesTimesMask (V m c main_v48) (V m c main_v47)) := by
  show (cfg0.win 2).cut (grid0.coords t) ((dats m 0 c).after 2 t) = _
  rw [after0_2]
  unfold out0_2
  rw [View.canon_unit_zero origin3]
  simp only [View.ld_unit_zero (S := S8x384x384) origin3, View.ld_unit_zero (S := S384x384) origin2]
  obtain ⟨a0, a1, a2, b0, b1, o0, o1, o2⟩ := block_index t
  funext j
  show k0_pay1 (iblk m c 0 t) (iblk m c 1 t) j = _
  refine (stored_apply (iblk m c 0 t) (iblk m c 1 t) j).trans ?_
  show FloatOps.mulf (V m c main_v48 (((cfg0.win 0).blk t).view.emb j)) (V m c main_v47 (((cfg0.win 1).blk t).view.emb (tilePixel j)))
    = FloatOps.mulf (V m c main_v48 (((cfg0.win 2).blk t).view.emb j)) (V m c main_v47 (planePixel (((cfg0.win 2).blk t).view.emb j)))
  have hx : ((cfg0.win 0).blk t).view.emb j = ((cfg0.win 2).blk t).view.emb j := by
    funext a; apply Fin.ext
    match a with
    | ⟨0, _⟩ => show win0_0.index t (0 : Fin 3) * 8 + 1 * (j 0).val = win0_2.index t (0 : Fin 3) * 8 + 1 * (j 0).val; omega
    | ⟨1, _⟩ => show win0_0.index t (1 : Fin 3) * 384 + 1 * (j 1).val = win0_2.index t (1 : Fin 3) * 384 + 1 * (j 1).val; omega
    | ⟨2, _⟩ => show win0_0.index t (2 : Fin 3) * 384 + 1 * (j 2).val = win0_2.index t (2 : Fin 3) * 384 + 1 * (j 2).val; omega
  have hm : ((cfg0.win 1).blk t).view.emb (tilePixel j) = planePixel (((cfg0.win 2).blk t).view.emb j) := by
    funext a; apply Fin.ext
    match a with
    | ⟨0, _⟩ => show win0_1.index t (0 : Fin 2) * 384 + 1 * (j 1).val = win0_2.index t (1 : Fin 3) * 384 + 1 * (j 1).val; omega
    | ⟨1, _⟩ => show win0_1.index t (1 : Fin 2) * 384 + 1 * (j 2).val = win0_2.index t (2 : Fin 3) * 384 + 1 * (j 2).val; omega
  rw [hx, hm]

/-- An entry of the result is in point t's tile iff each coordinate is in the tile's range on its axis. -/
theorem mem_tile (t : Fin cfg0.N) (i : S192x384x384.Idx) :
    i ∈ ((cfg0.win 2).blk t).view.set ↔ ∀ a : Fin 3, win0_2.index t a * S8x384x384.size a ≤ (i a).val ∧ (i a).val < win0_2.index t a * S8x384x384.size a + S8x384x384.size a := by
  show i ∈ ((View.whole main_v49).slice (win0_2.rect t)).set ↔ _
  rw [View.set_slice_whole, Rect.mem_set_unit]
  exact Iff.rfl

/-- Every entry (p, h, w) of the result is in the tile of point p / 8, and that point writes back. -/
theorem covered (i : S192x384x384.Idx) :
    ∃ t : Fin cfg0.N, (cfg0.win 2).flush t = true ∧ i ∈ ((cfg0.win 2).blk t).view.set := by
  have hp : (i 0).val < 192 := (i 0).isLt
  have hh : (i 1).val < 384 := (i 1).isLt
  have hw : (i 2).val < 384 := (i 2).isLt
  have hN : cfg0.N = 24 := N_0
  let t : Fin cfg0.N := ⟨(i 0).val / 8, by rw [hN]; omega⟩
  obtain ⟨-, -, -, -, -, o0, o1, o2⟩ := block_index t
  have ht : t.val = (i 0).val / 8 := rfl
  refine ⟨t, flush0_2 t, ?_⟩
  rw [mem_tile]
  intro a
  match a with
  | ⟨0, _⟩ => show win0_2.index t (0 : Fin 3) * 8 ≤ (i 0).val ∧ (i 0).val < win0_2.index t (0 : Fin 3) * 8 + 8; omega
  | ⟨1, _⟩ => show win0_2.index t (1 : Fin 3) * 384 ≤ (i 1).val ∧ (i 1).val < win0_2.index t (1 : Fin 3) * 384 + 384; omega
  | ⟨2, _⟩ => show win0_2.index t (2 : Fin 3) * 384 ≤ (i 2).val ∧ (i 2).val < win0_2.index t (2 : Fin 3) * 384 + 384; omega

/-- The result array after the run: X ⊙ M on all 192 planes. -/
theorem planes_after (c : Dev nD) :
    (dats m 0 c).arrAt 2 cfg0.N = planesTimesMask (V m c main_v48) (V m c main_v47) :=
  (dats m 0 c).arrAt_eq_of_cover 2 _ (fun t _ => flushed_eq m c t) covered

end Cert.KernelIdeal.PlanesValue

end
-- ==== Proof.KernelResult.lean ====
/-
  Around the kernel's one region the host does three things. Before it: it builds the mask M from the patch table —
  line for line the operations by which the reference builds its mask, so M is the reference's mask and is never opened
  here — and merges the batch's two leading axes, X = merge x. After it: it splits the leading axis of the region's
  result back into (b, ch). With the region's result X ⊙ M on the planes, the kernel's result is x ⊙ M.
-/
import proofs.«115919_j9491877724175_1_alg».proof.Proof.KernelPlanes
import proofs.«115919_j9491877724175_1_alg».proof.Proof.Gen.ReferenceIdeal.Read
import Idealize.ShloMosaic.Lib.StableHlo.Run

noncomputable section

namespace Cert.KernelIdeal.Result

open Cert.KernelIdeal Cert.KernelIdeal.Gen Cert.MaskedProduct Idealize.ShloMosaic Idealize.ShloMosaic.TcCoe Idealize.SL.Sem
open Idealize.ShloMosaic.StableHlo

variable {F : FTy → Type} [FloatOps F]
variable (m : (ℓ : Loc nD τ sig) → Buf (Elt F) ℓ) (ρ : Dev nD → PrngReg)

/-- The region finds, as its first window's array, the batch with its leading axes merged. -/
theorem planes_entry (c : Dev nD) :
    (V m c main_v48 : S192x384x384.Idx → Elt F .f32)
      = shapeCast S192x384x384 (m ((c : Thread nD τ).loc main_arg0)) shapeCasts_S64x3x384x384_S192x384x384 := by
  show StableHlo.after hostOps0 (fun b => m (c, b)) (Proc.devRef .tc main_v48) = _
  after_results
  rfl

set_option maxRecDepth 8192 in
set_option maxHeartbeats 2000000 in
/-- The region finds, as its second window's array, the mask — built from the patch table by the very operations
    of the reference, whose stage for it this is (some fifty operations, read back in one pass). -/
theorem mask_entry (c : Dev nD) :
    (V m c main_v47 : S384x384.Idx → Elt F .f32)
      = Cert.ReferenceIdeal.Read.val_main_v47 (F := F) (m ((c : Thread nD τ).loc main_arg1)) := by
  show StableHlo.after hostOps0 (fun b => m (c, b)) (Proc.devRef .tc main_v47) = _
  after_results_simp <;> rfl

/-- The line after the region splits the leading axis of the region's result array. -/
theorem result_split (c : Dev nD) :
    Pipeline.afterTail₀ cfgs (dats m) 0 (V0 m) [hostOps1] c main_v50
      = shapeCast S64x3x384x384 ((dats m 0 c).arrAt 2 cfg0.N) shapeCasts_S192x384x384_S64x3x384x384 := by
  unfold Pipeline.afterTail₀
  show StableHlo.after hostOps1 _ (Proc.devRef .tc main_v50) = _
  after_results
  exact congrArg (fun a => shapeCast S64x3x384x384 a shapeCasts_S192x384x384_S64x3x384x384)
    (Pipeline.withArrays_arr spec0 launch0.win.arr_inj c _ _ 2)

/-- The kernel's result: the batch times the reference's mask, pixel by pixel. -/
theorem result_eq (c : Dev nD) :
    Pipeline.afterTail₀ cfgs (dats m) 0 (V0 m) [hostOps1] c main_v50
      = imageTimesMask (m ((c : Thread nD τ).loc main_arg0))
          (Cert.ReferenceIdeal.Read.val_main_v47 (F := F) (m ((c : Thread nD τ).loc main_arg1))) := by
  rw [result_split, PlanesValue.planes_after, planes_entry, mask_entry]
  exact split_planesTimesMask_merge _ _ _ _

/-- Every weakly fair execution of the kernel's program terminates with its result at x ⊙ M and its arguments as launched. -/
theorem run : θ_run defs (onTc (τ := τ) (main (F := F))) ⟨m, fun _ => 0, ρ⟩ fun r => ∀ c : Dev nD,
      r.2.mem ((c.tc : Thread nD τ).loc main_v50)
        = imageTimesMask (m ((c : Thread nD τ).loc main_arg0))
            (Cert.ReferenceIdeal.Read.val_main_v47 (F := F) (m ((c : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v50 (Pipeline.mem_restRefs_of main_v50 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Result

end
-- ==== Proof.ReferenceValue.lean ====
/-
  The reference multiplies the batch by the mask after repeating the mask over a unit batch axis and a unit channel
  axis and then over all 64 images and 3 channels: entry (b, ch, h, w) of the repeated mask is the mask's entry
  (h, w), so the reference's result is x ⊙ M with M the mask its scatter builds.
-/
import proofs.«115919_j9491877724175_1_alg».proof.Proof.Gen.ReferenceIdeal.Read
import proofs.«115919_j9491877724175_1_alg».proof.Proof.MaskedProduct

noncomputable section

namespace Cert.ReferenceIdeal.MaskValue

open Cert.ReferenceIdeal Cert.ReferenceIdeal.Read Cert.MaskedProduct Idealize.ShloMosaic Idealize.ShloMosaic.ValueIdx

variable {F : FTy → Type} [FloatOps F]

/-- Through the two repetitions an entry (b, ch, h, w) reads the mask at its pixel (h, w). -/
theorem repeated_pixel (i : S64x3x384x384.Idx) : idx_main_v48 (idx_main_v49 i) = pixel i :=
  funext fun a => Fin.ext (by match a with | ⟨0, _⟩ => rfl | ⟨1, _⟩ => rfl)

/-- The reference's result is the batch times the mask its scatter builds, pixel by pixel. -/
theorem result_eq (x : (⟨S64x3x384x384, .f32⟩ : BufTy).Contents (Elt F)) (pv : (⟨S21x21, .i32⟩ : BufTy).Contents (Elt F)) :
    val_main_v50 (F := F) x pv = imageTimesMask x (val_main_v47 (F := F) pv) := by
  funext i
  rw [val_main_v50_apply, val_main_v49_apply, val_main_v48_apply, repeated_pixel]
  rfl

end Cert.ReferenceIdeal.MaskValue

end
-- ==== Proof.lean ====
/-
  A batch of images x : [64, 3, 384, 384] is multiplied by a mask M : [384, 384] that depends only on the pixel:
  M is 1 outside a 21 × 21 lattice of 12 × 12 patches (patch (r, s) covering rows 6 + 18 r … 17 + 18 r and columns
  6 + 18 s … 17 + 18 s) and, on patch (r, s), the entry (r, s) of an integer patch table. Kernel and reference build M
  from the patch table by the same host operations, one for one, so it enters both sides as the same array and is
  never evaluated.

  The kernel merges the batch's leading axes into 192 planes, multiplies the planes by M eight at a time on a grid of
  24 points, and splits the planes back; the reference repeats M over the images and channels and multiplies once.
  Entry (b, ch, h, w) of either result is the single product x (b, ch, h, w) · M (h, w): the two programs differ only
  in how entries are addressed (plane 3 b + ch of point (3 b + ch) / 8 against entry (b, ch) directly), not in what is
  computed, so no law of the extended reals is needed and the finiteness of x is never used.

  Each program runs to completion with its arguments unchanged (the kernel at the word level and idealized, by the
  frame of its one region; the reference by its straight-line run), and the idealization rewrote nothing.
-/
import proofs.«115919_j9491877724175_1_alg».proof.Defs
import proofs.«115919_j9491877724175_1_alg».proof.Proof.Gen.Kernel
import proofs.«115919_j9491877724175_1_alg».proof.Proof.Gen.Kernel.Skeleton
import proofs.«115919_j9491877724175_1_alg».proof.Proof.Gen.Kernel.Launch
import proofs.«115919_j9491877724175_1_alg».proof.Proof.Gen.Kernel.Points
import proofs.«115919_j9491877724175_1_alg».proof.Proof.Gen.Kernel.Frame
import proofs.«115919_j9491877724175_1_alg».proof.Proof.Gen.KernelIdeal
import proofs.«115919_j9491877724175_1_alg».proof.Proof.Gen.KernelIdeal.Skeleton
import proofs.«115919_j9491877724175_1_alg».proof.Proof.Gen.KernelIdeal.Launch
import proofs.«115919_j9491877724175_1_alg».proof.Proof.Gen.KernelIdeal.Points
import proofs.«115919_j9491877724175_1_alg».proof.Proof.Gen.KernelIdeal.Frame
import proofs.«115919_j9491877724175_1_alg».proof.Proof.Gen.ReferenceIdeal
import proofs.«115919_j9491877724175_1_alg».proof.Proof.Gen.Pre_finite_inputs
import proofs.«115919_j9491877724175_1_alg».proof.Proof.Gen.ReferenceIdeal.Run
import proofs.«115919_j9491877724175_1_alg».proof.Proof.Gen.ReferenceIdeal.Read
import proofs.«115919_j9491877724175_1_alg».proof.Proof.KernelResult
import proofs.«115919_j9491877724175_1_alg».proof.Proof.ReferenceValue
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's straight-line run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end at x ⊙ M, M the one mask both build from the patch table, when they start from the same x and
    the same patch table. -/
theorem algebraic : Cert.algebraic_KernelIdeal_ReferenceIdeal := by
  intro m ρ m' ρ' _ hagree
  refine ⟨_, Cert.KernelIdeal.Result.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v50_eq, Cert.ReferenceIdeal.MaskValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
